-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x2048 : Shape := ⟨3, ![32, 4096, 2048]⟩
abbrev S_ : Shape := ⟨0, ![]⟩

class Facts : Prop where
  bcast_S_S32x4096x2048 : S_.BroadcastsInDim S32x4096x2048 (![] : Fin 0 → Fin S32x4096x2048.rank)
  reducesTo_S32x4096x2048_S_d0_1_2 : S32x4096x2048.ReducesTo [0, 1, 2] S_
  h_S_ : 0 < S_.numel

variable [Facts]

def fn {F : FTy → Type} [FloatOps F] (main_arg0 : FVec F S32x4096x2048 .f32) : IVec S_ 1 :=
  let main_v0 : FVec F S32x4096x2048 .f32 := Host.absf main_arg0
  let main_cst : FVec F S_ .f32 := constant S_ .f32 0x7F800000#32
  let main_v1 : FVec F S32x4096x2048 .f32 := broadcastInDim S32x4096x2048 ![] bcast_S_S32x4096x2048 main_cst
  let main_v2 : IVec S32x4096x2048 1 := cmpf .olt main_v0 main_v1
  let main_c : IVec S_ 1 := constantI S_ 1 1#1
  let main_v3 : IVec S_ 1 := (fun x v => Host.reduce IntOp.andi x v reducesTo_S32x4096x2048_S_d0_1_2 h_S_) main_v2 main_c
  main_v3
-- ==== Kernel.lean ====
abbrev S32x4096x2048 : Shape := ⟨3, ![32, 4096, 2048]⟩
abbrev S131072x2048 : Shape := ⟨2, ![131072, 2048]⟩
abbrev S512x2048 : Shape := ⟨2, ![512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S32x4096x2048, .f32⟩
  | .hbm, ⟨1, _⟩ => ⟨S131072x2048, .f32⟩
  | .hbm, ⟨2, _⟩ => ⟨S131072x2048, .f32⟩
  | .hbm, ⟨3, _⟩ => ⟨S32x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S32x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x4096x2048_S131072x2048 : S32x4096x2048.ShapeCasts S131072x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S131072x2048_S32x4096x2048 : S131072x2048.ShapeCasts S32x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S131072x2048.size a
  hwx0_0 : ∀ i : grid0.Coords, EltTy.bits .f32 = 32 ∨ (Rect.block (s := S131072x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S131072x2048.size a
  hwx0_1 : ∀ i : grid0.Coords, EltTy.bits .f32 = 32 ∨ (Rect.block (s := S131072x2048) S512x2048.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4096x2048 : Shape := ⟨3, ![32, 4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S32x4096x2048, .f32⟩
  | .hbm, ⟨1, _⟩ => ⟨S_, .f32⟩
  | .hbm, ⟨2, _⟩ => ⟨S32x4096x2048, .f32⟩
  | .hbm, ⟨3, _⟩ => ⟨S32x4096x2048, .i1⟩
  | .hbm, ⟨4, _⟩ => ⟨S_, .f32⟩
  | .hbm, ⟨5, _⟩ => ⟨S32x4096x2048, .f32⟩
  | .hbm, ⟨6, _⟩ => ⟨S32x4096x2048, .f32⟩
  | .hbm, ⟨7, _⟩ => ⟨S32x4096x2048, .f32⟩
  | _, _ => ⟨S32x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S32x4096x2048 : S_.BroadcastsInDim S32x4096x2048 (![] : Fin 0 → Fin S32x4096x2048.rank)

variable [Facts₀]

class Facts : Prop extends Facts₀ where

variable [Facts]
-- ==== Proof.QRelu.lean ====
/-
  The function both programs compute, element by element: the leaky rectifier

      q a  =  a          if a > 0
              c * a      otherwise,

  with c the single-precision word 0xBFFEB852 (the float nearest -1.99) and the comparison against the word
  0x00000000 (zero). Stated once for any float interpretation: a comparison, a product with a literal and a
  selection, in that order and with those operands, is what both printed bodies apply to each element. Because q
  acts on one element at a time it commutes with every re-laying of an array that only moves elements (a change of
  shape that keeps row-major order), and two such changes of shape that undo each other disappear around it.
-/
import Idealize.ShloMosaic.PureOps
import Idealize.ShloMosaic.Lib.Pipeline.Value

noncomputable section

namespace Cert.QRelu

open Idealize.ShloMosaic

variable {F : FTy → Type} [FloatOps F]

/-- One element: keep a positive entry, scale any other entry by the literal c. -/
def q (a : F .f32) : F .f32 :=
  Scalar.select (FloatOps.cmpf .ogt a (FloatOps.ofBits .f32 0x00000000#32)) a
    (FloatOps.mulf (FloatOps.ofBits .f32 0xBFFEB852#32) a)

/-- The same at every index of an array of any shape. -/
def qmap {s : Shape} (x : s.Idx → F .f32) : s.Idx → F .f32 := fun i => q (x i)

theorem qmap_apply {s : Shape} (x : s.Idx → F .f32) (i : s.Idx) : qmap x i = q (x i) := rfl

/-- The vector form the kernel body spells: compare with a splat of zero, multiply a splat of c, select. -/
theorem select_splat_eq {s : Shape} (x : FVec F s .f32) :
    select (cmpf .ogt x (broadcast s (Scalar.ofBits .f32 0x00000000#32))) x
        (mulf (broadcast s (Scalar.ofBits .f32 0xBFFEB852#32)) x)
      = qmap x := rfl

/-- An elementwise map commutes with a change of shape: the element at a position is read, then mapped. -/
theorem qmap_shapeCast {s t : Shape} (x : s.Idx → F .f32) (h : s.ShapeCasts t) :
    shapeCast t (qmap x) h = qmap (shapeCast t x h) := rfl

/-- Re-lay an array, map it elementwise, and lay it back as it was: the map of the array itself. -/
theorem relay_qmap_relay {s t : Shape} (x : s.Idx → F .f32) (h : s.ShapeCasts t) (h' : t.ShapeCasts s) :
    shapeCast s (qmap (shapeCast t x h)) h' = qmap x := by
  rw [qmap_shapeCast, shapeCast_shapeCast]

end Cert.QRelu

end
-- ==== Proof.KernelValue.lean ====
/-
  The kernel, read as a value. The program lays its [32, 4096, 2048] argument out as 131072 rows of 2048 (a change of
  shape that keeps row-major order), runs a pipeline of 256 grid points over that array, and lays the result back.
  Point t stages rows 512 t .. 512 t + 511, all 2048 columns, of the input; the body loads that whole block, applies
  the leaky rectifier `q` to each element, and stores the whole block; the pipeline writes it back to the same rows of
  the output. Input and output use one index map, so the block written at a point is `q` mapped over the very rows
  read there, and the 256 blocks tile the 131072 rows: the output array is `q` mapped over the re-laid argument. The
  final change of shape undoes the first one around an elementwise map, so the result is `q` mapped over the argument.
-/
import proofs.«151789_j22359599743361_1_alg».proof.Proof.Gen.KernelIdeal.Frame
import proofs.«151789_j22359599743361_1_alg».proof.Proof.QRelu
import Idealize.ShloMosaic.Lib.Pipeline.Value
import Idealize.ShloMosaic.Lib.StableHlo.Run

noncomputable section

namespace Cert.KernelIdeal.QValue

open Cert.KernelIdeal Cert.KernelIdeal.Gen Idealize.ShloMosaic Idealize.ShloMosaic.TcCoe Idealize.SL.Sem
open Idealize.ShloMosaic.Pipeline (Dat)
open Cert.QRelu

variable {F : FTy → Type} [FloatOps F]
variable (m : (ℓ : Loc nD τ sig) → Buf (Elt F) ℓ) (ρ : Dev nD → PrngReg)

/-! ## The array the region finds -/

/-- When the region is entered the flattened array holds the argument's elements in row-major order as 131072 rows. -/
theorem entry_rows (c : Dev nD) :
    (V m c main_v0 : S131072x2048.Idx → F .f32)
      = shapeCast S131072x2048 (m ((c : Thread nD τ).loc main_arg0)) shapeCasts_S32x4096x2048_S131072x2048 := by
  show StableHlo.after hostOps0 (fun b => m (c, b)) (Proc.devRef .tc main_v0) = _
  after_results
  rfl

/-! ## One block -/

theorem zero_offsets : (![0, 0] : Fin 2 → Nat) = fun _ => 0 := funext fun a => by fin_cases a <;> rfl

/-- The body's stored value is `q` of each loaded element: its change of shape is to the same shape, and what is left
    is the comparison with a splat of zero, the product with a splat of c, and the selection. -/
theorem payload_eq (x0 : Vec F S512x2048 .f32) : k0_pay1 x0 = qmap x0 := by
  unfold k0_pay1
  simp only [shapeCast_self]
  rfl

/-- The two windows move together, block row t at point t, and neither moves along the columns. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point t writes back is block t of `q` mapped over the array the region found. -/
theorem flushed_eq (c : Dev nD) (t : Fin cfg0.N) :
    (dats m 0 c).flushed 1 t = ((cfg0.win 1).blk t).view.read (Elt F) (qmap (V m c main_v0)) := by
  show (cfg0.win 1).cut (grid0.coords t) ((dats m 0 c).after 1 t) = _
  rw [after0_1]
  unfold out0_1
  rw [View.canon_unit_zero zero_offsets]
  simp only [View.ld_unit_zero (S := S512x2048) zero_offsets]
  rw [payload_eq]
  obtain ⟨e0, e1, -, -⟩ := index_facts t
  funext j
  show q (V m c main_v0 (((cfg0.win 0).blk t).view.emb j)) = q (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-! ## The blocks tile the rows -/

/-- An index of the output array lies in point t's block exactly when each coordinate lies in the block's range. -/
theorem mem_block (t : Fin cfg0.N) (i : S131072x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Row r of the output is written at point r / 512. -/
theorem covered (i : S131072x2048.Idx) :
    ∃ t : Fin cfg0.N, (cfg0.win 1).flush t = true ∧ i ∈ ((cfg0.win 1).blk t).view.set := by
  have hi0 : (i 0).val < 131072 := (i 0).isLt
  have hi1 : (i 1).val < 2048 := (i 1).isLt
  obtain ⟨t, ht⟩ : ∃ t : Fin cfg0.N, t.val = (i 0).val / 512 :=
    ⟨⟨(i 0).val / 512, by show _ < grid0.N; rw [N_0]; omega⟩, rfl⟩
  obtain ⟨-, -, q0, q1⟩ := index_facts t
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After the last point the output array is `q` mapped over the array the region found. -/
theorem output_rows (c : Dev nD) : (dats m 0 c).arrAt 1 cfg0.N = qmap (V m c main_v0) :=
  (dats m 0 c).arrAt_eq_of_cover 1 _ (fun t _ => flushed_eq m c t) covered

/-! ## The change of shape after the region, and the run -/

/-- The program's result: the output rows laid back as [32, 4096, 2048], which is `q` mapped over the argument. -/
theorem result_eq (c : Dev nD) :
    Pipeline.afterTail₀ cfgs (dats m) 0 (V0 m) [hostOps1] c main_v2 = qmap (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = qmap (shapeCast S131072x2048 (m ((c : Thread nD τ).loc main_arg0)) shapeCasts_S32x4096x2048_S131072x2048) :=
    (Pipeline.withArrays_arr spec0 launch0.win.arr_inj c _ _ 1).trans
      ((output_rows m c).trans (congrArg qmap (entry_rows m c)))
  rw [e]
  exact relay_qmap_relay _ _ _

/-- Every fair execution of the kernel's program ends with its result array at `q` mapped over the argument, the
    argument itself unchanged: the result is a buffer no window stages, so it holds what the lines after the region
    left, and the argument is written by no line. -/
theorem run : θ_run defs (onTc (τ := τ) (main (F := F))) ⟨m, fun _ => 0, ρ⟩ fun r => ∀ c : Dev nD,
      r.2.mem ((c : Thread nD τ).loc main_v2) = qmap (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.QValue

end
-- ==== Proof.RefValue.lean ====
/-
  The reference, read at an index. Its program is six pointwise host operations on the whole [32, 4096, 2048] array:
  a splat of zero, the comparison x > 0, a splat of the literal c, the product c * x, and the selection between x and
  that product. Each result element depends on the one element of x at the same index, and what it computes there is
  the leaky rectifier `q`; so the array the reference ends with is `q` mapped over its argument.
-/
import proofs.«151789_j22359599743361_1_alg».proof.Proof.Gen.ReferenceIdeal.Run
import proofs.«151789_j22359599743361_1_alg».proof.Proof.Gen.ReferenceIdeal.Read
import proofs.«151789_j22359599743361_1_alg».proof.Proof.QRelu

noncomputable section

namespace Cert.ReferenceIdeal.QValue

open Cert.ReferenceIdeal Cert.ReferenceIdeal.Gen Idealize.ShloMosaic Idealize.ShloMosaic.TcCoe Idealize.SL.Sem
open Cert.QRelu

variable {F : FTy → Type} [FloatOps F]

/-- The last stage of the reference, at every index, is `q` of the argument's element there: both splats read their
    one scalar, the comparison and the product are elementwise, and the selection picks by the comparison's bit. -/
theorem stage_eq (x : (⟨S32x4096x2048, .f32⟩ : BufTy).Contents (Elt F)) :
    Read.val_main_v4 (F := F) x = qmap x := by
  funext i
  rw [Read.val_main_v4_apply, Read.val_main_v1_apply, Read.val_main_v3_apply, Read.val_main_v0_apply,
    Read.val_main_v2_apply, Read.val_main_cst_apply, Read.val_main_cst_0_apply]
  rfl

/-- Every fair execution of the reference ends with its result array at `q` mapped over the argument, the argument
    itself unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = qmap (m ((c.tc : Thread nD τ).loc main_arg0))
      ∧ r.2.mem ((c.tc : Thread nD τ).loc main_arg0) = m ((c.tc : Thread nD τ).loc main_arg0) :=
  (θ_run defs _ _).mono (fun _ h c => ⟨(h c).1.trans ((Read.val_main_v4_eq _).trans (stage_eq _)), (h c).2⟩)
    (Value.run (F := F) m ρ)

end Cert.ReferenceIdeal.QValue

end
-- ==== Proof.lean ====
/-
  The kernel and its reference both compute the leaky rectifier, element by element, of one [32, 4096, 2048] array:

      out = x        where x > 0
            c * x    elsewhere,        c the single-precision word 0xBFFEB852 on both sides.

  The kernel flattens the array to 131072 rows, maps blocks of 512 rows through a pipeline of 256 grid points, and
  restores the shape; the reference applies the comparison, the product and the selection to the whole array. The
  two element functions are the same operations on the same literals in the same order, so they agree for every float
  interpretation and no property of the input (finiteness included) is used; the only content is that the 256 blocks
  tile the rows and that the two changes of shape cancel around an elementwise map (Proof/QRelu.lean,
  Proof/KernelValue.lean, Proof/RefValue.lean).

  The three frames: the kernel's programs terminate without fault and keep the argument, by the pipeline's frame
  theorem over the body's one covering store; the reference's frame is its run with the result dropped. The
  idealization rewrote no operation, so there is nothing to preserve.
-/
import proofs.«151789_j22359599743361_1_alg».proof.Defs
import proofs.«151789_j22359599743361_1_alg».proof.Proof.Gen.Kernel
import proofs.«151789_j22359599743361_1_alg».proof.Proof.Gen.Kernel.Skeleton
import proofs.«151789_j22359599743361_1_alg».proof.Proof.Gen.Kernel.Launch
import proofs.«151789_j22359599743361_1_alg».proof.Proof.Gen.Kernel.Points
import proofs.«151789_j22359599743361_1_alg».proof.Proof.Gen.Kernel.Frame
import proofs.«151789_j22359599743361_1_alg».proof.Proof.Gen.KernelIdeal
import proofs.«151789_j22359599743361_1_alg».proof.Proof.Gen.KernelIdeal.Skeleton
import proofs.«151789_j22359599743361_1_alg».proof.Proof.Gen.KernelIdeal.Launch
import proofs.«151789_j22359599743361_1_alg».proof.Proof.Gen.KernelIdeal.Points
import proofs.«151789_j22359599743361_1_alg».proof.Proof.Gen.KernelIdeal.Frame
import proofs.«151789_j22359599743361_1_alg».proof.Proof.Gen.ReferenceIdeal
import proofs.«151789_j22359599743361_1_alg».proof.Proof.Gen.ReferenceIdeal.Run
import proofs.«151789_j22359599743361_1_alg».proof.Proof.Gen.Pre_finite_inputs
import proofs.«151789_j22359599743361_1_alg».proof.Proof.KernelValue
import proofs.«151789_j22359599743361_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference keeps its argument: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the rectifier mapped over the argument; from memories that agree on the argument the two
    results are therefore one array. -/
theorem algebraic : Cert.algebraic_KernelIdeal_ReferenceIdeal := by
  intro m ρ m' ρ' _ hagree
  refine ⟨_, Cert.KernelIdeal.QValue.run (F := Ideal) m ρ, ?_⟩
  refine (θ_run Cert.ReferenceIdeal.defs _ _).mono (fun _ h c => ⟨(h c).1.trans ?_, (h c).2⟩)
    (Cert.ReferenceIdeal.QValue.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
